-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S1x4096 : Shape := ⟨2, ![1, 4096]⟩
abbrev S4096x2048 : Shape := ⟨2, ![4096, 2048]⟩
abbrev S1x2048 : Shape := ⟨2, ![1, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S256x4096, .f32⟩
  | .local _ .vmem, ⟨7, _⟩ => ⟨S256x4096, .f32⟩
  | .local _ .vmem, ⟨8, _⟩ => ⟨S4096x2048, .bf16⟩
  | .local _ .vmem, ⟨9, _⟩ => ⟨S4096x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x4096.size a
  hwx1_1 : ∀ i : grid1.Coords, EltTy.bits .bf16 = 32 ∨ (Rect.block (s := S4096x4096) S4096x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x4096.size a
  hwx1_3 : ∀ i : grid1.Coords, EltTy.bits .f32 = 32 ∨ (Rect.block (s := S8192x4096) S256x2048.size (cc1_transform_3 i) (hinb1_3 i)).WholeWords (EltTy.packing .f32)

variable [Facts₀]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The layer both programs compute, on the extended reals, entry by entry:
    out[r, c] = (∑ k, x[r, k] · (w[k, c] · mask[k, c])) + b[c],    r < 8192, k < 4096, c < 4096.
  It is stated in two steps, the way the kernel computes it: the masked weights first, then the product with them plus
  the bias read as a [1, 4096] row. The two programs order the 4096 terms of a sum differently and tile the arrays
  differently, but a finite sum in a commutative monoid has one value, so no property of the entries is used.
-/
import Idealize.ShloMosaic.PureOps.Ideal
import Idealize.ShloMosaic.Lib.ValueIdx

noncomputable section

namespace Cert.DenseLayer

open Idealize.ShloMosaic Idealize.ShloMosaic.ValueIdx

abbrev Tokens : Shape := ⟨2, ![8192, 4096]⟩
abbrev Weights : Shape := ⟨2, ![4096, 4096]⟩
abbrev BiasRow : Shape := ⟨2, ![1, 4096]⟩
abbrev Bias : Shape := ⟨1, ![4096]⟩

/-- The row of an entry of the result. -/
abbrev row (i : Tokens.Idx) : Fin 8192 := ⟨(i 0).val, idx2_lt0 i⟩
/-- The column of an entry of the result. -/
abbrev col (i : Tokens.Idx) : Fin 4096 := ⟨(i 1).val, idx2_lt1 i⟩

/-- The weights with the mask applied, entry by entry. -/
def maskedWeights (w mk : Weights.Idx → EReal) : Weights.Idx → EReal := fun j => w j * mk j

/-- `x · wm + b`, the bias a [1, 4096] row added to every row of the product. -/
def affineRow (x : Tokens.Idx → EReal) (wm : Weights.Idx → EReal) (b : BiasRow.Idx → EReal) : Tokens.Idx → EReal :=
  fun i => (∑ k : Fin 4096, x (ix2 (row i) k) * wm (ix2 k (col i))) + b (ix2 (0 : Fin 1) (col i))

/-- The layer: `x · (w ∘ mask) + b`. -/
def dense (x : Tokens.Idx → EReal) (w mk : Weights.Idx → EReal) (b : Bias.Idx → EReal) : Tokens.Idx → EReal :=
  fun i => (∑ k : Fin 4096, x (ix2 (row i) k) * (w (ix2 k (col i)) * mk (ix2 k (col i)))) + b (ix1 (col i))

/-- The two-step form is the layer when the row is the bias laid out as [1, 4096]. -/
theorem affineRow_masked (x : Tokens.Idx → EReal) (w mk : Weights.Idx → EReal) (b : Bias.Idx → EReal) (b2 : BiasRow.Idx → EReal)
    (hb : ∀ q : Fin 4096, b2 (ix2 (0 : Fin 1) q) = b (ix1 q)) :
    affineRow x (maskedWeights w mk) b2 = dense x w mk b := by
  funext i
  unfold affineRow dense maskedWeights
  rw [hb]

end Cert.DenseLayer

end
-- ==== Proof.MatmulBody.lean ====
/-
  The second kernel's stored value, read at an entry (r, c) of its [256, 2048] block, on the extended reals: narrowing is
  the identity, the matrix unit's product into a zero accumulator is the sum over the 4096 contracted positions, and the
  [1, 2048] bias row is repeated down the rows:
    pay[r, c] = (∑ k, x[r, k] · wm[k, c]) + b[0, c].
-/
import proofs.«144373_g67843303407970_cont_9to1c4b_90_20_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulBody

open Cert.KernelIdeal Cert.KernelIdeal.Gen
open Idealize.ShloMosaic Idealize.ShloMosaic.TcCoe Idealize.SL.Sem
open Idealize.ShloMosaic.Pipeline (Dat)

open Idealize.ShloMosaic.ValueIdx

/-- The left operand's position for output entry i and contracted position k: (row of i, k). -/
abbrev lpos (i : S256x2048.Idx) (k : Fin 4096) : S256x4096.Idx := fun a => match a with
  | ⟨0, _⟩ => ⟨(i 0).val, (i 0).isLt⟩
  | ⟨1, _⟩ => ⟨k.val, k.isLt⟩
/-- The right operand's position: (k, column of i). -/
abbrev rpos (i : S256x2048.Idx) (k : Fin 4096) : S4096x2048.Idx := fun a => match a with
  | ⟨0, _⟩ => ⟨k.val, k.isLt⟩
  | ⟨1, _⟩ => ⟨(i 1).val, (i 1).isLt⟩
/-- The bias row's position: (0, column of i). -/
abbrev bpos (i : S256x2048.Idx) : S1x2048.Idx := fun a => match a with
  | ⟨0, _⟩ => ⟨0, Nat.one_pos⟩
  | ⟨1, _⟩ => ⟨(i 1).val, (i 1).isLt⟩

theorem lhs_axis0 (i : S256x2048.Idx) (q : dot_S256x4096_S4096x2048_S256x2048_1_0_0_1_n_n.contr.Idx) :
    (dot_S256x4096_S4096x2048_S256x2048_1_0_0_1_n_n.lhsIdx i q 0).val = (i 0).val := by
  unfold DotDims.lhsIdx
  rw [dif_neg (show ¬(0 : Fin S256x4096.rank) ∈ dot_S256x4096_S4096x2048_S256x2048_1_0_0_1_n_n.lhsBatch by decide), dif_pos (show (0 : Fin S256x4096.rank) ∈ dot_S256x4096_S4096x2048_S256x2048_1_0_0_1_n_n.lhsNonContracting by decide)]
  rfl
theorem lhs_axis1 (i : S256x2048.Idx) (q : dot_S256x4096_S4096x2048_S256x2048_1_0_0_1_n_n.contr.Idx) :
    (dot_S256x4096_S4096x2048_S256x2048_1_0_0_1_n_n.lhsIdx i q 1).val = (q ⟨0, by decide⟩).val :=
  dot_S256x4096_S4096x2048_S256x2048_1_0_0_1_n_n.lhsIdx_val_of_single rfl i q
theorem rhs_axis0 (i : S256x2048.Idx) (q : dot_S256x4096_S4096x2048_S256x2048_1_0_0_1_n_n.contr.Idx) :
    (dot_S256x4096_S4096x2048_S256x2048_1_0_0_1_n_n.rhsIdx i q 0).val = (q ⟨0, by decide⟩).val :=
  dot_S256x4096_S4096x2048_S256x2048_1_0_0_1_n_n.rhsIdx_val_of_single rfl i q
theorem rhs_axis1 (i : S256x2048.Idx) (q : dot_S256x4096_S4096x2048_S256x2048_1_0_0_1_n_n.contr.Idx) :
    (dot_S256x4096_S4096x2048_S256x2048_1_0_0_1_n_n.rhsIdx i q 1).val = (i 1).val := by
  unfold DotDims.rhsIdx
  rw [dif_neg (show ¬(1 : Fin S4096x2048.rank) ∈ dot_S256x4096_S4096x2048_S256x2048_1_0_0_1_n_n.rhsBatch by decide), dif_pos (show (1 : Fin S4096x2048.rank) ∈ dot_S256x4096_S4096x2048_S256x2048_1_0_0_1_n_n.rhsNonContracting by decide)]
  rfl

/-- The matrix unit's product into a zero accumulator, at an entry: the sum over the contracted axis. -/
theorem matmul_at (l : FVec Ideal S256x4096 .bf16) (r : FVec Ideal S4096x2048 .bf16) (i : S256x2048.Idx) :
    matmul (F := Ideal) dot_S256x4096_S4096x2048_S256x2048_1_0_0_1_n_n none l r (constant S256x2048 .f32 0x00000000#32) i
      = ∑ k : Fin 4096, l (lpos i k) * r (rpos i k) := by
  simp only [matmul]
  rw [Ideal.matmul_constant_zero_apply, ← Equiv.sum_comp (ValueIdx.contrEquiv1 dot_S256x4096_S4096x2048_S256x2048_1_0_0_1_n_n 4096 rfl rfl).symm]
  refine Finset.sum_congr rfl fun k _ => ?_
  have hk := ValueIdx.contrEquiv1_symm_val dot_S256x4096_S4096x2048_S256x2048_1_0_0_1_n_n 4096 rfl rfl k
  have el : dot_S256x4096_S4096x2048_S256x2048_1_0_0_1_n_n.lhsIdx i ((ValueIdx.contrEquiv1 dot_S256x4096_S4096x2048_S256x2048_1_0_0_1_n_n 4096 rfl rfl).symm k) = lpos i k := funext fun a => Fin.ext (by
    match a with
    | ⟨0, _⟩ => exact lhs_axis0 _ _
    | ⟨1, _⟩ => exact (lhs_axis1 _ _).trans hk)
  have er : dot_S256x4096_S4096x2048_S256x2048_1_0_0_1_n_n.rhsIdx i ((ValueIdx.contrEquiv1 dot_S256x4096_S4096x2048_S256x2048_1_0_0_1_n_n 4096 rfl rfl).symm k) = rpos i k := funext fun a => Fin.ext (by
    match a with
    | ⟨0, _⟩ => exact (rhs_axis0 _ _).trans hk
    | ⟨1, _⟩ => exact rhs_axis1 _ _)
  rw [el, er]

/-- The [1, 2048] row repeated down 256 rows, at an entry: the row at the entry's column. -/
theorem bias_at (b : FVec Ideal S1x2048 .f32) (i : S256x2048.Idx) :
    broadcastTo S256x2048 b broadcasts_S1x2048_S256x2048 i = b (bpos i) :=
  broadcastTo_apply b broadcasts_S1x2048_S256x2048 i (bpos i) (fun a => match a with
    | ⟨0, _⟩ => by show 0 = if (1 : Nat) = 1 then 0 else _; rw [if_pos rfl]
    | ⟨1, _⟩ => by show (i 1).val = if (2048 : Nat) = 1 then 0 else (i 1).val; rw [if_neg (by decide)])

/-- The stored value at an entry. -/
theorem payload_at (x0 : Vec Ideal S256x4096 .f32) (x1 : Vec Ideal S4096x2048 .bf16) (x2 : Vec Ideal S1x2048 .f32) (i : S256x2048.Idx) :
    k1_pay1 (F := Ideal) x0 x1 x2 i = (∑ k : Fin 4096, x0 (lpos i k) * x1 (rpos i k)) + x2 (bpos i) := by
  unfold k1_pay1
  show FloatOps.addf (matmul (F := Ideal) dot_S256x4096_S4096x2048_S256x2048_1_0_0_1_n_n none (truncf .bf16 x0 bitsLt_bf16_f32) (shapeCast S4096x2048 x1 shapeCasts_S4096x2048_S4096x2048) (constant S256x2048 .f32 0x00000000#32) i)
      (broadcastTo S256x2048 (shapeCast S1x2048 x2 shapeCasts_S1x2048_S1x2048) broadcasts_S1x2048_S256x2048 i) = _
  rw [shapeCast_self, shapeCast_self, matmul_at, bias_at]
  rfl

end Cert.KernelIdeal.MatmulBody

end
-- ==== Proof.MatmulRegion.lean ====
/-
  The second pallas_call: a 2 × 32 grid; at point (j, i) the body takes rows 256·i … of the tokens (all 4096 columns),
  columns 2048·j … of the masked weights (all 4096 rows) and of the bias row, and writes block (i, j) of the result.
  Each of the 64 blocks is written back once and they tile the [8192, 4096] result, so after the region the result holds
  `x · wm + b` at every entry, of the arrays as the region finds them.
-/
import proofs.«144373_g67843303407970_cont_9to1c4b_90_20_alg».proof.Proof.Gen.KernelIdeal.Frame
import Idealize.ShloMosaic.Lib.Pipeline.Value
import Idealize.ShloMosaic.Lib.ValueIdx
import proofs.«144373_g67843303407970_cont_9to1c4b_90_20_alg».proof.Proof.Spec
import proofs.«144373_g67843303407970_cont_9to1c4b_90_20_alg».proof.Proof.MatmulBody

set_option maxRecDepth 16384

noncomputable section

namespace Cert.KernelIdeal.MatmulRegion

open Cert.KernelIdeal Cert.KernelIdeal.Gen
open Idealize.ShloMosaic Idealize.ShloMosaic.TcCoe Idealize.SL.Sem
open Idealize.ShloMosaic.Pipeline (Dat)

open Idealize.ShloMosaic.ValueIdx Cert.DenseLayer Cert.KernelIdeal.MatmulBody

variable (V : (c : Dev nD) → (b : Ref sig .tc) → Buf (Elt Ideal) ((c : Thread nD τ).loc b))

theorem zero_offsets : (![0, 0] : Fin 2 → Nat) = fun _ => 0 := funext fun a => by fin_cases a <;> rfl

/-- The three arrays the region reads, as it finds them. -/
abbrev tokens (c : Dev nD) : Vec Ideal S8192x4096 .f32 := V c main_arg0
abbrev weights (c : Dev nD) : Vec Ideal S4096x4096 .bf16 := V c main_v0
abbrev biasRow (c : Dev nD) : Vec Ideal S1x4096 .f32 := V c main_v1

/-- Where each window's block sits at point t, against the output's block (row block t mod 32, column block t / 32). -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) = t.val % 32 ∧ win1_3.index t (1 : Fin 2) = t.val / 32 :=
  (by decide +kernel : ∀ t : Fin grid1.N, _)

/-- What point t writes back is block t of `x · wm + b` of the arrays as the region finds them. -/
theorem flushed_eq (c : Dev nD) (t : Fin cfg1.N) :
    (dat1 V c).flushed 3 t = ((cfg1.win 3).blk t).view.read (Elt Ideal) (affineRow (tokens V c) (weights V c) (biasRow V c)) := by
  show (cfg1.win 3).cut (grid1.coords t) ((dat1 V c).after 3 t) = _
  rw [after1_3]
  unfold out1_3
  rw [View.canon_unit_zero zero_offsets]
  simp only [View.ld_unit_zero (S := S256x4096) zero_offsets, View.ld_unit_zero (S := S4096x2048) zero_offsets, View.ld_unit_zero (S := S1x2048) zero_offsets]
  obtain ⟨e0, e1, e2, e3, e4, e5, -, -⟩ := index_facts t
  funext j
  refine (payload_at (iblk1 V c 0 t) (iblk1 V c 1 t) (iblk1 V c 2 t) j).trans ?_
  show (∑ k : Fin 4096, tokens V c (((cfg1.win 0).blk t).view.emb (lpos j k)) * weights V c (((cfg1.win 1).blk t).view.emb (rpos j k)))
        + biasRow V c (((cfg1.win 2).blk t).view.emb (bpos j))
      = (∑ k : Fin 4096, tokens V c (ix2 (row (((cfg1.win 3).blk t).view.emb j)) k) * weights V c (ix2 k (col (((cfg1.win 3).blk t).view.emb j))))
        + biasRow V c (ix2 (0 : Fin 1) (col (((cfg1.win 3).blk t).view.emb j)))
  have hx : ∀ k : Fin 4096, ((cfg1.win 0).blk t).view.emb (lpos j k) = ix2 (row (((cfg1.win 3).blk t).view.emb j)) k := fun k => by
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 4096 + 1 * k.val = k.val; omega
  have hw : ∀ k : Fin 4096, ((cfg1.win 1).blk t).view.emb (rpos j k) = ix2 k (col (((cfg1.win 3).blk t).view.emb j)) := fun k => by
    funext a; apply Fin.ext
    match a with
    | ⟨0, _⟩ => show win1_1.index t (0 : Fin 2) * 4096 + 1 * k.val = k.val; omega
    | ⟨1, _⟩ => show win1_1.index t (1 : Fin 2) * 2048 + 1 * (j 1).val = win1_3.index t (1 : Fin 2) * 2048 + 1 * (j 1).val; omega
  have hb : ((cfg1.win 2).blk t).view.emb (bpos j) = ix2 (0 : Fin 1) (col (((cfg1.win 3).blk t).view.emb j)) := by
    funext a; apply Fin.ext
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega
  rw [hb]
  exact congrArg (· + _) (Finset.sum_congr rfl fun k _ => by rw [hx k, hw k])

/-- An entry is in point t's block exactly when each coordinate is in the block's range on its axis. -/
theorem mem_block (t : Fin cfg1.N) (i : S8192x4096.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v2).slice (win1_3.rect t)).set ↔ _
  rw [View.set_slice_whole, Rect.mem_set_unit]
  exact Iff.rfl

/-- Every entry of the result lies in the block of point 32 · (column / 2048) + row / 256. -/
theorem covered (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  let t : Fin cfg1.N := ⟨(i 1).val / 2048 * 32 + (i 0).val / 256, by rw [show cfg1.N = 64 from N_1]; omega⟩
  obtain ⟨-, -, -, -, -, -, e6, e7⟩ := index_facts t
  have e6' : win1_3.index t (0 : Fin 2) = ((i 1).val / 2048 * 32 + (i 0).val / 256) % 32 := e6
  have e7' : win1_3.index t (1 : Fin 2) = ((i 1).val / 2048 * 32 + (i 0).val / 256) / 32 := e7
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-- After the region the result holds `x · wm + b` of the arrays as the region finds them. -/
theorem final (c : Dev nD) : (dat1 V c).arrAt 3 cfg1.N = affineRow (tokens V c) (weights V c) (biasRow V c) :=
  (dat1 V c).arrAt_eq_of_cover 3 _ (fun t _ => flushed_eq V c t) covered

end Cert.KernelIdeal.MatmulRegion

end
-- ==== Proof.Prep.lean ====
/-
  The first pallas_call: sixteen row blocks of 256 rows; at block t the body multiplies rows 256·t … 256·t+255 of the
  weights by the same rows of the mask, entry by entry, and narrows the product. Every block is written back once and the
  sixteen blocks tile the [4096, 4096] array, so after the region the array holds the narrowed product at every entry.
-/
import proofs.«144373_g67843303407970_cont_9to1c4b_90_20_alg».proof.Proof.Gen.KernelIdeal.Frame
import Idealize.ShloMosaic.Lib.Pipeline.Value
import Idealize.ShloMosaic.Lib.ValueIdx

set_option maxRecDepth 16384

noncomputable section

namespace Cert.KernelIdeal.Prep

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The narrowed entrywise product of two [4096, 4096] arrays. -/
abbrev masked (a1 a2 : S4096x4096.Idx → Elt F .f32) : S4096x4096.Idx → Elt F .bf16 :=
  fun i => FloatOps.truncf .bf16 bitsLt_bf16_f32 (FloatOps.mulf (a1 i) (a2 i))

/-- The body's stored value is the narrowed entrywise product of the two loaded blocks. -/
theorem payload_eq (x0 x1 : Vec F S256x4096 .f32) :
    k0_pay1 x0 x1 = fun j => FloatOps.truncf .bf16 bitsLt_bf16_f32 (FloatOps.mulf (x0 j) (x1 j)) := rfl

/-- The three windows move together: block t of each is rows 256·t … of its array, all 4096 columns. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What point t writes back is block t of the narrowed product of the two arrays as the region finds them. -/
theorem flushed_eq (c : Dev nD) (t : Fin cfg0.N) :
    (dat0 V c).flushed 2 t = ((cfg0.win 2).blk t).view.read (Elt F) (masked (V c main_arg1) (V c main_arg2)) := by
  show (cfg0.win 2).cut (grid0.coords t) ((dat0 V c).after 2 t) = _
  rw [after0_2]
  unfold out0_2
  rw [View.canon_unit_zero zero_offsets]
  simp only [View.ld_unit_zero (S := S256x4096) zero_offsets]
  rw [payload_eq]
  obtain ⟨e0, e1, e2, e3, e4, e5⟩ := index_facts t
  funext j
  show FloatOps.truncf .bf16 bitsLt_bf16_f32 (FloatOps.mulf (V c main_arg1 (((cfg0.win 0).blk t).view.emb j)) (V c main_arg2 (((cfg0.win 1).blk t).view.emb j)))
    = FloatOps.truncf .bf16 bitsLt_bf16_f32 (FloatOps.mulf (V c main_arg1 (((cfg0.win 2).blk t).view.emb j)) (V c main_arg2 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An entry is in point t's block exactly when each coordinate is in the block's range on its axis. -/
theorem mem_block (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Every entry of the array lies in the block of the point numbered by its row divided by 256. -/
theorem covered (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  let t : Fin cfg0.N := ⟨(i 0).val / 256, by rw [show cfg0.N = 16 from N_0]; omega⟩
  obtain ⟨-, -, -, -, e4, e5⟩ := index_facts t
  have e4' : win0_2.index t (0 : Fin 2) = (i 0).val / 256 := e4
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After the region the output array holds the narrowed product of the two input arrays at every entry. -/
theorem final (c : Dev nD) : (dat0 V c).arrAt 2 cfg0.N = masked (V c main_arg1) (V c main_arg2) :=
  (dat0 V c).arrAt_eq_of_cover 2 _ (fun t _ => flushed_eq V c t) covered

end Cert.KernelIdeal.Prep

end
-- ==== Proof.Entry.lean ====
/-
  What the second pallas_call finds when it is entered, in terms of the memory the program was launched from: the tokens
  untouched; the masked weights as the first pallas_call left them (the narrowed entrywise product of weights and mask);
  the bias laid out as a [1, 4096] row by the reshape between the two calls.
-/
import proofs.«144373_g67843303407970_cont_9to1c4b_90_20_alg».proof.Proof.Gen.KernelIdeal.Frame
import Idealize.ShloMosaic.Lib.Pipeline.Value
import Idealize.ShloMosaic.Lib.ValueIdx
import proofs.«144373_g67843303407970_cont_9to1c4b_90_20_alg».proof.Proof.Prep
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.Pipeline (Dat)

open Idealize.ShloMosaic.ValueIdx

variable {F : FTy → Type} [FloatOps F]
variable (m : (ℓ : Loc nD τ sig) → Buf (Elt F) ℓ) (ρ : Dev nD → PrngReg)

/-- The tokens are as launched. -/
theorem tokens_eq (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- The masked weights are the narrowed entrywise product of the launched weights and mask. -/
theorem weights_eq (c : Dev nD) : V2 m ρ c main_v0
    = Prep.masked (m ((c : Thread nD τ).loc main_arg1)) (m ((c : Thread nD τ).loc main_arg2)) := by
  show StableHlo.after hostOps1 (W1 m ρ c) (Proc.devRef .tc main_v0) = _
  after_results
  exact (W1_arr m ρ c 2).trans (Prep.final (V0 m ρ) c)

/-- The bias row is the launched bias reshaped to [1, 4096]. -/
theorem biasRow_eq (c : Dev nD) : V2 m ρ c main_v1
    = shapeCast S1x4096 (m ((c : Thread nD τ).loc main_arg3)) shapeCasts_S4096_S1x4096 := by
  show StableHlo.after hostOps1 (W1 m ρ c) (Proc.devRef .tc main_v1) = _
  after_results
  have h : W1 m ρ c (Proc.devRef .tc main_arg3) = m ((c : Thread nD τ).loc main_arg3) := W1_of_ne m ρ c main_arg3 (by decide)
  funext i
  show shapeCast S1x4096 (W1 m ρ c (Proc.devRef .tc main_arg3)) shapeCasts_S4096_S1x4096 i = _
  rw [h]

/-- The [1, 4096] layout of a length-4096 vector holds entry q at (0, q). -/
theorem reshape_row_apply {α : Type} (b : S4096.Idx → α) (q : Fin 4096) :
    shapeCast S1x4096 b shapeCasts_S4096_S1x4096 (ix2 (0 : Fin 1) q) = b (ix1 q) := by
  refine shapeCast_apply b shapeCasts_S4096_S1x4096 _ (ix1 q) ?_
  rw [Shape.rowMajor_val_one, Shape.rowMajor_val_two]
  show q.val = 0 * 4096 + q.val
  omega

end Cert.KernelIdeal.Entry

end
-- ==== Proof.LayerValue.lean ====
/-
  The kernel program's result on the extended reals. The second pallas_call leaves `x · wm + b` of what it finds on entry;
  on entry the tokens are as launched, wm is the product weights · mask (narrowing to bf16 is the identity on the extended
  reals) and b is the bias as a [1, 4096] row. So the result is the layer `dense` of the four launched arguments.
-/
import proofs.«144373_g67843303407970_cont_9to1c4b_90_20_alg».proof.Proof.Gen.KernelIdeal.Frame
import Idealize.ShloMosaic.Lib.Pipeline.Value
import Idealize.ShloMosaic.Lib.ValueIdx
import proofs.«144373_g67843303407970_cont_9to1c4b_90_20_alg».proof.Proof.KernelRun
import proofs.«144373_g67843303407970_cont_9to1c4b_90_20_alg».proof.Proof.MatmulRegion
import proofs.«144373_g67843303407970_cont_9to1c4b_90_20_alg».proof.Proof.Entry

set_option maxRecDepth 16384

noncomputable section

namespace Cert.KernelIdeal.LayerValue

open Cert.KernelIdeal Cert.KernelIdeal.Gen
open Idealize.ShloMosaic Idealize.ShloMosaic.TcCoe Idealize.SL.Sem
open Idealize.ShloMosaic.Pipeline (Dat)

open Cert.DenseLayer

variable (m : (ℓ : Loc nD τ sig) → Buf (Elt Ideal) ℓ) (ρ : Dev nD → PrngReg)

/-- The result array after the run is the layer of the launched arguments. -/
theorem result_eq (c : Dev nD) : (dat1 (V2 m ρ) c).arrAt 3 cfg1.N
    = dense (m ((c : Thread nD τ).loc main_arg0)) (m ((c : Thread nD τ).loc main_arg1)) (m ((c : Thread nD τ).loc main_arg2)) (m ((c : Thread nD τ).loc main_arg3)) := by
  rw [MatmulRegion.final (V2 m ρ) c]
  show affineRow (V2 m ρ c main_arg0) (V2 m ρ c main_v0) (V2 m ρ c main_v1) = _
  rw [Entry.tokens_eq m ρ c, Entry.weights_eq m ρ c, Entry.biasRow_eq m ρ c]
  exact affineRow_masked _ (m ((c : Thread nD τ).loc main_arg1)) (m ((c : Thread nD τ).loc main_arg2)) (m ((c : Thread nD τ).loc main_arg3)) _
    (fun q => Entry.reshape_row_apply _ q)

/-- Every weakly fair execution of the kernel program terminates with the result at the layer of the launched arguments
    and the arguments unchanged. -/
theorem run : θ_run defs (onTc (τ := τ) (main (F := Ideal))) ⟨m, fun _ => 0, ρ⟩ (fun r => ∀ c : Dev nD,
      r.2.mem ((c.tc : Thread nD τ).loc main_v2)
        = dense (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Named.run_named m ρ)

end Cert.KernelIdeal.LayerValue

end
-- ==== Proof.RefSide.lean ====
/-
  The reference, read entry by entry on the extended reals: the host's `dot_general` is the sum over the contracted axis
  of tokens[r, k] times the product weights[k, c] · mask[k, c], and the bias, broadcast twice, is read at the column.
  That is the layer `dense` of the four arguments.
-/
import proofs.«144373_g67843303407970_cont_9to1c4b_90_20_alg».proof.Proof.Gen.ReferenceIdeal.Read
import proofs.«144373_g67843303407970_cont_9to1c4b_90_20_alg».proof.Proof.Spec

noncomputable section

namespace Cert.ReferenceIdeal.RefValue

open Cert.ReferenceIdeal Cert.ReferenceIdeal.Read
open Idealize.ShloMosaic Idealize.ShloMosaic.ValueIdx Cert.DenseLayer

/-- The reference's result, as a function of its four arguments, is the layer. -/
theorem result_eq (x0 : (⟨S8192x4096, .f32⟩ : BufTy).Contents (Elt Ideal)) (x1 x2 : (⟨S4096x4096, .f32⟩ : BufTy).Contents (Elt Ideal))
    (x3 : (⟨S4096, .f32⟩ : BufTy).Contents (Elt Ideal)) :
    val_main_v4 (F := Ideal) x0 x1 x2 x3 = dense x0 x1 x2 x3 := by
  funext i
  have el : ∀ k : Fin 4096, lidx_main_v1 i k = ix2 (row i) k := fun k => funext fun a => by
    match a with
    | ⟨0, _⟩ => rfl
    | ⟨1, _⟩ => rfl
  have er : ∀ k : Fin 4096, ridx_main_v1 i k = ix2 k (col i) := fun k => funext fun a => by
    match a with
    | ⟨0, _⟩ => rfl
    | ⟨1, _⟩ => rfl
  have eb : idx_main_v2 (idx_main_v3 i) = ix1 (col i) := funext fun a => by
    match a with
    | ⟨0, _⟩ => rfl
  rw [val_main_v4_apply, val_main_v1_apply, val_main_v3_apply, val_main_v2_apply, eb]
  simp only [val_main_v0_apply, el, er, Ideal.addf_def, Ideal.mulf_def]
  rfl

end Cert.ReferenceIdeal.RefValue

end
-- ==== Proof.lean ====
/-
  A dense layer with a masked weight matrix: out = x · (w ∘ mask) + b over x : [8192, 4096], w, mask : [4096, 4096],
  b : [4096]. The kernel program computes it in two pallas_calls — the masked weights first, narrowed to bf16, then a
  blocked product of the narrowed tokens with them plus the bias row — and the reference as one host `dot_general` plus a
  broadcast bias. On the extended reals narrowing is the identity and both products are the same finite sum over the
  contracted axis, so both programs end at one function of the arguments, `Cert.DenseLayer.dense` (Proof/Spec.lean); no
  law that needs finite entries is used, and the precondition is never opened.
  The frames of the two kernel programs are the generated ones; the reference's frame is its generated run with the
  result dropped; the idealization rewrote nothing, so `preserves` is trivial.
-/
import proofs.«144373_g67843303407970_cont_9to1c4b_90_20_alg».proof.Defs
import proofs.«144373_g67843303407970_cont_9to1c4b_90_20_alg».proof.Proof.Gen.Kernel
import proofs.«144373_g67843303407970_cont_9to1c4b_90_20_alg».proof.Proof.Gen.Kernel.Skeleton
import proofs.«144373_g67843303407970_cont_9to1c4b_90_20_alg».proof.Proof.Gen.Kernel.Launch
import proofs.«144373_g67843303407970_cont_9to1c4b_90_20_alg».proof.Proof.Gen.Kernel.Points
import proofs.«144373_g67843303407970_cont_9to1c4b_90_20_alg».proof.Proof.Gen.Kernel.Frame
import proofs.«144373_g67843303407970_cont_9to1c4b_90_20_alg».proof.Proof.Gen.KernelIdeal
import proofs.«144373_g67843303407970_cont_9to1c4b_90_20_alg».proof.Proof.Gen.KernelIdeal.Skeleton
import proofs.«144373_g67843303407970_cont_9to1c4b_90_20_alg».proof.Proof.Gen.KernelIdeal.Launch
import proofs.«144373_g67843303407970_cont_9to1c4b_90_20_alg».proof.Proof.Gen.KernelIdeal.Points
import proofs.«144373_g67843303407970_cont_9to1c4b_90_20_alg».proof.Proof.Gen.KernelIdeal.Frame
import proofs.«144373_g67843303407970_cont_9to1c4b_90_20_alg».proof.Proof.Gen.ReferenceIdeal
import proofs.«144373_g67843303407970_cont_9to1c4b_90_20_alg».proof.Proof.Gen.ReferenceIdeal.Run
import proofs.«144373_g67843303407970_cont_9to1c4b_90_20_alg».proof.Proof.Gen.ReferenceIdeal.Read
import proofs.«144373_g67843303407970_cont_9to1c4b_90_20_alg».proof.Proof.Gen.Pre_finite_inputs
import proofs.«144373_g67843303407970_cont_9to1c4b_90_20_alg».proof.Proof.LayerValue
import proofs.«144373_g67843303407970_cont_9to1c4b_90_20_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at the layer of those arguments. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
